-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x4096x1024 : Shape := ⟨3, ![8, 4096, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn {F : FTy → Type} [FloatOps F] (main_arg0 : FVec F S8x2048x1024 .f32) (main_arg1 : FVec F S8x4096x1024 .f32) (main_arg2 : FVec F S8x4096x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x4096x1024 .f32 := Host.absf main_arg2
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  main_v13
-- ==== Kernel.lean ====
abbrev S8x2048x1024 : Shape := ⟨3, ![8, 2048, 1024]⟩
abbrev S8x4096x1024 : Shape := ⟨3, ![8, 4096, 1024]⟩
abbrev S1x512x1024 : Shape := ⟨3, ![1, 512, 1024]⟩
abbrev S512x1024 : Shape := ⟨2, ![512, 1024]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8x4096x1024, .f32⟩
  | .hbm, ⟨2, _⟩ => ⟨S8x4096x1024, .f32⟩
  | .hbm, ⟨3, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v33 : BitVec 1 := Scalar.cmpi .eq arg2 c7_i32
  let v34 : BitVec 32 := Scalar.extui v33
  let c0_i32_18 : BitVec 32 := 0#32
  let v35 : BitVec 1 := Scalar.cmpi .ne v34 c0_i32_18
  v35

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  shapeCasts_S512x1024_S1x512x1024 : S512x1024.ShapeCasts S1x512x1024
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x4096x1024.size a
  hwx0_1 : ∀ i : grid0.Coords, EltTy.bits .f32 = 32 ∨ (Rect.block (s := S8x4096x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x4096x1024.size a
  hwx0_2 : ∀ i : grid0.Coords, EltTy.bits .f32 = 32 ∨ (Rect.block (s := S8x4096x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x2048x1024.size a
  hwx0_3 : ∀ i : grid0.Coords, EltTy.bits .f32 = 32 ∨ (Rect.block (s := S8x2048x1024) S1x512x1024.size (cc0_transform_3 i) (hinb0_3 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x4096x1024 : Shape := ⟨3, ![8, 4096, 1024]⟩
abbrev S8x2048x4096 : Shape := ⟨3, ![8, 2048, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x4096x1024, .f32⟩
  | .hbm, ⟨2, _⟩ => ⟨S8x4096x1024, .f32⟩
  | .hbm, ⟨3, _⟩ => ⟨S8x2048x4096, .f32⟩
  | .hbm, ⟨4, _⟩ => ⟨S8x2048x4096, .f32⟩
  | .hbm, ⟨5, _⟩ => ⟨S8x2048x4096, .f32⟩
  | .hbm, ⟨6, _⟩ => ⟨S_, .f32⟩
  | .hbm, ⟨7, _⟩ => ⟨S8x2048x4096, .f32⟩
  | .hbm, ⟨8, _⟩ => ⟨S8x2048x4096, .f32⟩
  | .hbm, ⟨9, _⟩ => ⟨S8x2048x4096, .f32⟩
  | .hbm, ⟨10, _⟩ => ⟨S_, .f32⟩
  | .hbm, ⟨11, _⟩ => ⟨S8x2048x4096, .f32⟩
  | .hbm, ⟨12, _⟩ => ⟨S8x2048x4096, .f32⟩
  | .hbm, ⟨13, _⟩ => ⟨S8x2048x4096, .f32⟩
  | .hbm, ⟨14, _⟩ => ⟨S_, .f32⟩
  | .hbm, ⟨15, _⟩ => ⟨S8x2048x4096, .f32⟩
  | .hbm, ⟨16, _⟩ => ⟨S8x2048x4096, .f32⟩
  | .hbm, ⟨17, _⟩ => ⟨S_, .f32⟩
  | .hbm, ⟨18, _⟩ => ⟨S8x2048x4096, .f32⟩
  | .hbm, ⟨19, _⟩ => ⟨S8x2048x4096, .f32⟩
  | .hbm, ⟨20, _⟩ => ⟨S8x2048x4096, .f32⟩
  | .hbm, ⟨21, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S8x2048x4096 : S_.BroadcastsInDim S8x2048x4096 (![] : Fin 0 → Fin S8x2048x4096.rank)
  dot_S8x2048x1024_S8x4096x1024_S8x2048x4096_2_2_1_1_0_0_wf : DotDims.WF S8x2048x1024 S8x4096x1024 S8x2048x4096 [2] [2] [1] [1] [0] [0]
  dot_S8x2048x4096_S8x4096x1024_S8x2048x1024_2_1_1_2_0_0_wf : DotDims.WF S8x2048x4096 S8x4096x1024 S8x2048x1024 [2] [1] [1] [2] [0] [0]

variable [Facts₀]

def dot_S8x2048x1024_S8x4096x1024_S8x2048x4096_2_2_1_1_0_0 : DotDims S8x2048x1024 S8x4096x1024 S8x2048x4096 where
  lhsContracting := [2]
  rhsContracting := [2]
  lhsNonContracting := [1]
  rhsNonContracting := [1]
  lhsBatch := [0]
  rhsBatch := [0]
  wf := dot_S8x2048x1024_S8x4096x1024_S8x2048x4096_2_2_1_1_0_0_wf
def dot_S8x2048x4096_S8x4096x1024_S8x2048x1024_2_1_1_2_0_0 : DotDims S8x2048x4096 S8x4096x1024 S8x2048x1024 where
  lhsContracting := [2]
  rhsContracting := [1]
  lhsNonContracting := [1]
  rhsNonContracting := [2]
  lhsBatch := [0]
  rhsBatch := [0]
  wf := dot_S8x2048x4096_S8x4096x1024_S8x2048x1024_2_1_1_2_0_0_wf

class Facts : Prop extends Facts₀ where

variable [Facts]
-- ==== Proof.Spec.lean ====
/-
  The mathematics of one expert feed-forward block, stated over plain index types and the extended reals, with no
  program in sight.

  For every expert e, token row t and output column j the block computes
      out[e, t, j] = ∑ f < 4096, gelu (∑ k < 1024, x[e, t, k] · w1[e, f, k]) · w2[e, f, j],
  where gelu is the tanh approximation h · (½ · (1 + tanh (c₁ · (h + c₀ · h³)))) with the four literals kept as
  the binary words the programs carry (the same words on both sides, so they are never evaluated).

  The hidden axis of 4096 entries is the disjoint union of eight tiles of 512: position f of tile jj is entry
  512·jj + f. Addition on the extended reals is commutative and associative, so the sum over the hidden axis is the
  sum over the tiles of the tile sums, in any order and from any grouping; no finiteness is needed.
-/
import Idealize.ShloMosaic.PureOps.Ideal
import Idealize.ShloMosaic.Lib.ValueIdx
import Mathlib.Algebra.BigOperators.Fin
import Mathlib.Logic.Equiv.Fin.Basic

noncomputable section

open scoped BigOperators

namespace Cert.ExpertMlp

open Idealize.ShloMosaic Idealize.ShloMosaic.ValueIdx

/-- The activations' and the result's shape: experts, token rows, model columns. -/
abbrev SX : Shape := ⟨3, ![8, 2048, 1024]⟩
/-- Both weight arrays' shape: experts, hidden entries, model columns. -/
abbrev SW : Shape := ⟨3, ![8, 4096, 1024]⟩

/-- The tanh approximation of GELU on the extended reals, the cube grouped as h · (h · h). -/
def gelu (h : EReal) : EReal :=
  h * (Ideal.ofBits .f32 0x3F000000#32 * (Ideal.ofBits .f32 0x3F800000#32
    + Ideal.tanh (Ideal.ofBits .f32 0x3F4C422A#32 * (h + Ideal.ofBits .f32 0x3D372713#32 * (h * (h * h))))))

/-- The cube grouped the other way is the same number: multiplication of extended reals commutes. -/
theorem gelu_cube_left (h : EReal) :
    h * (Ideal.ofBits .f32 0x3F000000#32 * (Ideal.ofBits .f32 0x3F800000#32
      + Ideal.tanh (Ideal.ofBits .f32 0x3F4C422A#32 * (h + Ideal.ofBits .f32 0x3D372713#32 * (h * h * h))))) = gelu h := by
  unfold gelu
  rw [mul_comm (h * h) h]

/-- The hidden pre-activation of expert e, token row t, hidden entry f. -/
def preact (X : SX.Idx → EReal) (W1 : SW.Idx → EReal) (e : Fin 8) (t : Fin 2048) (f : Fin 4096) : EReal :=
  ∑ k : Fin 1024, X (ix3 e t k) * W1 (ix3 e f k)

/-- The block's result, entry by entry. -/
def G (X : SX.Idx → EReal) (W1 W2 : SW.Idx → EReal) : SX.Idx → EReal := fun i =>
  ∑ f : Fin 4096, gelu (preact X W1 (i 0) (i 1) f) * W2 (ix3 (i 0) f (i 2))

/-- Position f of hidden tile jj. -/
abbrev tileEntry (jj : Fin 8) (f : Fin 512) : Fin 4096 := ⟨jj.val * 512 + f.val, by omega⟩

/-- One hidden tile's contribution to out[e, t, j]. -/
def tile (X : SX.Idx → EReal) (W1 W2 : SW.Idx → EReal) (e : Fin 8) (t : Fin 2048) (jj : Fin 8) (j : Fin 1024) : EReal :=
  ∑ f : Fin 512, gelu (preact X W1 e t (tileEntry jj f)) * W2 (ix3 e (tileEntry jj f) j)

/-- A sum over the hidden axis is the sum over the eight tiles of the sums over a tile. -/
theorem sum_hidden_eq_tiles {M : Type*} [AddCommMonoid M] (φ : Fin 4096 → M) :
    ∑ f : Fin 4096, φ f = ∑ jj : Fin 8, ∑ f : Fin 512, φ (tileEntry jj f) := by
  rw [← (finProdFinEquiv : Fin 8 × Fin 512 ≃ Fin 4096).sum_comp φ, Fintype.sum_prod_type]
  refine Finset.sum_congr rfl fun jj _ => Finset.sum_congr rfl fun f _ => ?_
  congr 1
  apply Fin.ext
  show f.val + 512 * jj.val = jj.val * 512 + f.val
  omega

/-- The result at (e, t, j) is the sum of the eight tiles' contributions. -/
theorem G_eq_tiles (X : SX.Idx → EReal) (W1 W2 : SW.Idx → EReal) (e : Fin 8) (t : Fin 2048) (j : Fin 1024) :
    G X W1 W2 (ix3 e t j) = ∑ jj : Fin 8, tile X W1 W2 e t jj j := by
  show ∑ f : Fin 4096, gelu (preact X W1 e t f) * W2 (ix3 e f j) = _
  rw [sum_hidden_eq_tiles]
  rfl

/-- The tiles up to and including tile k. -/
def tilesUpTo (k : ℕ) : Finset (Fin 8) := Finset.univ.filter fun jj => jj.val ≤ k

theorem tilesUpTo_zero : tilesUpTo 0 = {0} := by decide

theorem tilesUpTo_seven : tilesUpTo 7 = Finset.univ := by decide

/-- Taking one more tile adds exactly that tile. -/
theorem tilesUpTo_succ (k : ℕ) (hk : k + 1 < 8) :
    tilesUpTo (k + 1) = insert (⟨k + 1, hk⟩ : Fin 8) (tilesUpTo k) := by
  ext jj
  simp only [tilesUpTo, Finset.mem_filter, Finset.mem_univ, true_and, Finset.mem_insert, Fin.ext_iff]
  omega

theorem not_mem_tilesUpTo (k : ℕ) (hk : k + 1 < 8) : (⟨k + 1, hk⟩ : Fin 8) ∉ tilesUpTo k := by
  simp only [tilesUpTo, Finset.mem_filter, Finset.mem_univ, true_and]
  omega

/-- The running sum: the tiles up to k, plus tile k + 1, are the tiles up to k + 1. -/
theorem tiles_step {M : Type*} [AddCommMonoid M] (φ : Fin 8 → M) (k : ℕ) (hk : k + 1 < 8) :
    (∑ jj ∈ tilesUpTo k, φ jj) + φ ⟨k + 1, hk⟩ = ∑ jj ∈ tilesUpTo (k + 1), φ jj := by
  rw [tilesUpTo_succ k hk, Finset.sum_insert (not_mem_tilesUpTo k hk), add_comm]

end Cert.ExpertMlp

end
-- ==== Proof.RefIsSpec.lean ====
/-
  The reference computes the specification.

  Its program is two batched contractions around a pointwise activation. Read one stage at a time: the first
  contraction at (e, t, f) is the hidden pre-activation ∑ k, x[e, t, k] · w1[e, f, k]; the eleven pointwise stages
  after it build h · (½ · (1 + tanh (c₁ · (h + c₀ · ((h · h) · h))))), the cube grouped to the left, which is gelu h
  because multiplication commutes; the last contraction at (e, t, j) sums that against w2[e, f, j] over the 4096
  hidden entries. The operand indices each contraction computes are the evident triples.
-/
import proofs.«110914_j42966852829514_1_alg».proof.Proof.Gen.ReferenceIdeal.Read
import proofs.«110914_j42966852829514_1_alg».proof.Proof.Spec

noncomputable section

namespace Cert.ReferenceIdeal.RefValue

open Cert.ReferenceIdeal Cert.ReferenceIdeal.Read Idealize.ShloMosaic Idealize.ShloMosaic.ValueIdx Cert.ExpertMlp

/-- The first contraction reads x at (e, t, k) -/
theorem lidx_hidden (i : S8x2048x4096.Idx) (k : Fin 1024) : lidx_main_v0 i k = ix3 (i 0) (i 1) k :=
  funext fun a => Fin.ext (by match a with | ⟨0, _⟩ => rfl | ⟨1, _⟩ => rfl | ⟨2, _⟩ => rfl)

/-- and w1 at (e, f, k). -/
theorem ridx_hidden (i : S8x2048x4096.Idx) (k : Fin 1024) : ridx_main_v0 i k = ix3 (i 0) (i 2) k :=
  funext fun a => Fin.ext (by match a with | ⟨0, _⟩ => rfl | ⟨1, _⟩ => rfl | ⟨2, _⟩ => rfl)

/-- The second contraction reads the activations at (e, t, f), entry by entry, and w2 at (e, f, j). -/
theorem ridx_out (i : S8x2048x1024.Idx) (f : Fin 4096) : ridx_main_v14 i f = ix3 (i 0) f (i 2) :=
  funext fun a => Fin.ext (by match a with | ⟨0, _⟩ => rfl | ⟨1, _⟩ => rfl | ⟨2, _⟩ => rfl)

/-- The first stage is the hidden pre-activation. -/
theorem hidden_eq (X : SX.Idx → EReal) (W1 : SW.Idx → EReal) (i : S8x2048x4096.Idx) :
    val_main_v0 (F := Ideal) X W1 i = preact X W1 (i 0) (i 1) (i 2) := by
  rw [val_main_v0_apply]
  unfold preact
  simp only [lidx_hidden, ridx_hidden]
  rfl

/-- The pointwise stages apply gelu to it. -/
theorem act_eq (X : SX.Idx → EReal) (W1 : SW.Idx → EReal) (i : S8x2048x4096.Idx) :
    val_main_v13 (F := Ideal) X W1 i = gelu (preact X W1 (i 0) (i 1) (i 2)) := by
  rw [val_main_v13_apply, val_main_v12_apply, val_main_v11_apply, val_main_cst_2_apply, val_main_v10_apply,
    val_main_v9_apply, val_main_cst_1_apply, val_main_v8_apply, val_main_v7_apply, val_main_v6_apply,
    val_main_cst_0_apply, val_main_v5_apply, val_main_v4_apply, val_main_v3_apply, val_main_cst_apply,
    val_main_v2_apply, val_main_v1_apply, hidden_eq]
  exact gelu_cube_left _

/-- The reference's result is the specification. -/
theorem result_eq (X : SX.Idx → EReal) (W1 W2 : SW.Idx → EReal) :
    val_main_v14 (F := Ideal) X W1 W2 = G X W1 W2 := by
  funext i
  rw [val_main_v14_apply]
  unfold G
  refine Finset.sum_congr rfl fun f _ => ?_
  rw [act_eq]
  exact congrArg (fun z => gelu (preact X W1 (i 0) (i 1) f) * W2 z) (ridx_out i f)

end Cert.ReferenceIdeal.RefValue

end
-- ==== Proof.Pieces.lean ====
/-
  What the body leaves behind in each of its three control cases, as values.

  The body's memory effect at a grid point is a short list of whole-buffer stores. At the first hidden tile the
  accumulator is stored twice, the zero block and then the update computed from the zero block read back; at every
  other tile it is stored once, the update computed from what the previous point left. At the last hidden tile the
  output block is stored once: the accumulator, just updated and read back, with the unit axis put in front.
  Every load and store goes through the whole buffer at offset zero, so reading the stores back gives the last
  store's payload, and a load of a freshly stored buffer gives that store's payload.
-/
import proofs.«110914_j42966852829514_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl

/-- First hidden tile: the accumulator ends at the update of the zero block. -/
theorem scratch_first (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : cond0_0 i) (hc1 : ¬cond0_1 i)
    (x0 x1 x2 : Vec F S1x512x1024 .f32) :
    sout0_A_0 c i arg3 harg3 arg4 harg4 arg5 harg5 arg6 harg6 arg7 harg7 hc0 hc1 x0 x1 x2 = k0_pay3 x0 x1 x2 (k0_pay2 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x1024) off2]
  simp only [View.readAt_eq_ld, harg3.read_unread, harg4.read_unread, harg5.read_unread,
    View.ld_unit_zero (S := S1x512x1024) off3, View.readCov_unit_zero (S := S512x1024) _ off2]

/-- A middle hidden tile: the accumulator ends at the update of what the point before left. -/
theorem scratch_middle (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond0_0 i) (hc1 : ¬cond0_1 i)
    (x0 x1 x2 : Vec F S1x512x1024 .f32) (xs0 : Vec F S512x1024 .f32) :
    sout0_B_0 c i arg3 harg3 arg4 harg4 arg5 harg5 arg6 harg6 arg7 harg7 hc0 hc1 x0 x1 x2 xs0 = k0_pay3 x0 x1 x2 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S512x1024) off2]
  simp only [View.readAt_eq_ld, harg3.read_unread, harg4.read_unread, harg5.read_unread, harg7.read_unread,
    View.ld_unit_zero (S := S1x512x1024) off3, View.ld_unit_zero (S := S512x1024) off2]

/-- The last hidden tile: the accumulator likewise, -/
theorem scratch_last (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond0_0 i) (hc1 : cond0_1 i)
    (x0 x1 x2 : Vec F S1x512x1024 .f32) (xs0 : Vec F S512x1024 .f32) :
    sout0_C_0 c i arg3 harg3 arg4 harg4 arg5 harg5 arg6 harg6 arg7 harg7 hc0 hc1 x0 x1 x2 xs0 = k0_pay3 x0 x1 x2 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S512x1024) off2]
  simp only [View.readAt_eq_ld, harg3.read_unread, harg4.read_unread, harg5.read_unread, harg7.read_unread,
    View.ld_unit_zero (S := S1x512x1024) off3, View.ld_unit_zero (S := S512x1024) off2]

/-- and the output block ends at the updated accumulator with the unit axis in front. -/
theorem out_last (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond0_0 i) (hc1 : cond0_1 i)
    (x0 x1 x2 : Vec F S1x512x1024 .f32) (xs0 : Vec F S512x1024 .f32) :
    out0_C_3 c i arg3 harg3 arg4 harg4 arg5 harg5 arg6 harg6 arg7 harg7 hc0 hc1 x0 x1 x2 xs0 = k0_pay1 (k0_pay3 x0 x1 x2 xs0) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S1x512x1024) off3]
  simp only [View.readAt_eq_ld, harg3.read_unread, harg4.read_unread, harg5.read_unread, harg7.read_unread,
    View.ld_unit_zero (S := S1x512x1024) off3, View.ld_unit_zero (S := S512x1024) off2,
    View.readCov_unit_zero (S := S512x1024) _ off2]

end Cert.KernelIdeal.Pieces

end
-- ==== Proof.LibTransposedRhsDot.lean ====
/-
  A matrix product against a transposed right operand, read at an entry, at the ideal instance.

  For a left operand [M, K] and a right operand [N, K] contracted on the LAST axis of both (the dimension record
  `DotDims.transposedRhs M K N`: no batch axis, the left rows first in the result, then the right rows), the
  product accumulated into the zero array holds at entry (i, j) the sum over k of l[i, k] · r[j, k]: the
  extended reals' sum and product, the zero accumulator's word being the real 0. The operand indices the record
  computes at a result index and a contraction position are read off coordinate by coordinate: the left one is
  (i, k), the right one (j, k); the contraction positions, a rank-1 index set of K entries, are renumbered by Fin K.
  Stated for any record EQUAL to `transposedRhs M K N`, so that a program's own record, whose fields are these
  lists, is used through `rfl`.
-/
import Idealize.ShloMosaic.PureOps.Ideal.Laws
import Idealize.ShloMosaic.Lib.ValueIdx

noncomputable section

namespace Idealize.ShloMosaic.TransposedRhsDot

open Idealize.ShloMosaic Idealize.ShloMosaic.ValueIdx

variable {M K N : Nat}

/-- The left operand's row is the result's row. -/
theorem lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.2 rfl)]
  rfl

/-- The left operand's column is the contraction position. -/
theorem lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row is the result's column. -/
theorem rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.2 rfl)]
  rfl

/-- The right operand's column is the contraction position. -/
theorem rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- A `tpu.matmul` into the zero accumulator, its record `transposedRhs M K N`, at entry `j`: the sum over `k` of
    the left operand at (j 0, k) times the right operand at (j 1, k). -/
theorem matmul_zero_apply {φ₁ φ₂ : FTy} (d : DotDims ⟨2, ![M, K]⟩ ⟨2, ![N, K]⟩ ⟨2, ![M, N]⟩)
    (hd : d = DotDims.transposedRhs M K N) (prec : Option ContractPrecision)
    (l : FVec Ideal ⟨2, ![M, K]⟩ φ₁) (r : FVec Ideal ⟨2, ![N, K]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 (j 1) k) := by
  subst hd
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs_0 _ _
      | ⟨1, _⟩ => exact (lhs_1 _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs_0 _ _
      | ⟨1, _⟩ => exact (rhs_1 _ _).trans hk)
  rw [el, er]
  rfl

end Idealize.ShloMosaic.TransposedRhsDot

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.Payload.lean ====
/-
  The kernel body's arithmetic, read at one entry, at the ideal instance.

  The body keeps a [512, 1024] accumulator. At the first hidden tile it is reset to the zero block; at every tile
  it is replaced by itself plus the tile's contribution. With x, w1, w2 the three staged [1, 512, 1024] blocks
  (512 token rows of x; 512 hidden entries of w1 and of w2), the contribution at (r, j) is
      ∑ f < 512, gelu (∑ k < 1024, x[0, r, k] · w1[0, f, k]) · w2[0, f, j]:
  the first product contracts the last axis of both operands, the second is a plain rows-by-columns product, both
  into the zero accumulator; the narrowing casts in front of the products are the identity on extended reals and
  the leading unit axis of a block is dropped by a reshape that keeps row-major positions. At the last tile the
  accumulator is copied to the output block under a reshape that puts the unit axis back.
-/
import proofs.«110914_j42966852829514_1_alg».proof.Proof.Gen.KernelIdeal.Skeleton
import proofs.«110914_j42966852829514_1_alg».proof.Proof.LibTransposedRhsDot
import proofs.«110914_j42966852829514_1_alg».proof.Proof.LibPlainDot
import proofs.«110914_j42966852829514_1_alg».proof.Proof.Spec
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx Cert.ExpertMlp

/-- The reset stores the zero block. -/
theorem reset_apply (y : S512x1024.Idx) : k0_pay2 (F := Ideal) y = 0 := by
  unfold k0_pay2
  simp only [shapeCast_self]
  exact Ideal.ofBits_zero_f32

/-- The hidden pre-activations of a point: row r of the x block against hidden entry f of the w1 block. -/
theorem hidden_apply (x0 x1 : Vec Ideal S1x512x1024 .f32) (r f : Fin 512) :
    matmul (F := Ideal) dot_S512x1024_S512x1024_S512x512_1_1_0_0_n_n none
        (truncf (F := Ideal) .bf16 (shapeCast S512x1024 x0 shapeCasts_S1x512x1024_S512x1024) bitsLt_bf16_f32)
        (truncf (F := Ideal) .bf16 (shapeCast S512x1024 x1 shapeCasts_S1x512x1024_S512x1024) bitsLt_bf16_f32)
        (constant (F := Ideal) S512x512 .f32 0x00000000#32) (ix2 r f)
      = ∑ k : Fin 1024, x0 (ix3 0 r k) * x1 (ix3 0 f k) := by
  refine (TransposedRhsDot.matmul_zero_apply _ rfl none _ _ _).trans ?_
  refine Finset.sum_congr rfl fun k _ => ?_
  exact congrArg₂ (· * ·) (shapeCast_1ab_ab_apply x0 shapeCasts_S1x512x1024_S512x1024 r k)
    (shapeCast_1ab_ab_apply x1 shapeCasts_S1x512x1024_S512x1024 f k)

/-- One accumulation step at (r, j): the old entry plus the tile's contribution. -/
theorem step_apply (x0 x1 x2 : Vec Ideal S1x512x1024 .f32) (acc : Vec Ideal S512x1024 .f32) (r : Fin 512) (j : Fin 1024) :
    k0_pay3 (F := Ideal) x0 x1 x2 acc (ix2 r j)
      = acc (ix2 r j) + ∑ f : Fin 512, gelu (∑ k : Fin 1024, x0 (ix3 0 r k) * x1 (ix3 0 f k)) * x2 (ix3 0 f j) := by
  unfold k0_pay3
  simp only [shapeCast_self]
  rw [addf_apply]
  refine congrArg (acc (ix2 r j) + ·) ?_
  refine (Cert.PlainDot.matmul_zero_apply _ rfl none _ _ _).trans ?_
  refine Finset.sum_congr rfl fun f _ => ?_
  refine congrArg₂ (· * ·) ?_ (shapeCast_1ab_ab_apply x2 shapeCasts_S1x512x1024_S512x1024 f j)
  rw [← hidden_apply x0 x1 r f]
  rfl

/-- The copy to the output block puts the unit axis back. -/
theorem copy_apply (acc : Vec Ideal S512x1024 .f32) (u : Fin 1) (r : Fin 512) (j : Fin 1024) :
    k0_pay1 (F := Ideal) acc (ix3 u r j) = acc (ix2 r j) := by
  unfold k0_pay1
  exact shapeCast_ab_1ab_apply acc shapeCasts_S512x1024_S1x512x1024 u r j

end Cert.KernelIdeal.Pay

end
-- ==== Proof.Geo.lean ====
/-
  Where a grid point's blocks lie in the arrays.

  The grid has 8 · 4 · 8 = 256 points; point n is expert n / 32, token tile (n / 8) mod 4, hidden tile n mod 8.
  The x block and the output block of a point are rows 512·(token tile) … +511 of the expert's [2048, 1024] slab;
  the w1 and w2 blocks are hidden entries 512·(hidden tile) … +511 of the expert's [4096, 1024] slab. A block
  entry (0, r, k) is therefore the array entry (expert, 512·tile + r, k): a block coordinate is always
  block index × block size + the coordinate inside the block. The block indices are decided once over the grid.
-/
import proofs.«110914_j42966852829514_1_alg».proof.Proof.Gen.KernelIdeal.Frame
import Idealize.ShloMosaic.Lib.Pipeline.Value
import Idealize.ShloMosaic.Lib.ValueIdx

noncomputable section

namespace Cert.KernelIdeal.Geo

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The x window's block index at a point: (expert, token tile, 0). -/
theorem idx_x : ∀ t : Fin cfg0.N, win0_0.index t 0 = t.val / 32 ∧ win0_0.index t 1 = t.val / 8 % 4 ∧ win0_0.index t 2 = 0 :=
  (by decide +kernel : ∀ t : Fin grid0.N, win0_0.index t 0 = t.val / 32 ∧ win0_0.index t 1 = t.val / 8 % 4 ∧ win0_0.index t 2 = 0)

/-- The w1 window's: (expert, hidden tile, 0). -/
theorem idx_w1 : ∀ t : Fin cfg0.N, win0_1.index t 0 = t.val / 32 ∧ win0_1.index t 1 = t.val % 8 ∧ win0_1.index t 2 = 0 :=
  (by decide +kernel : ∀ t : Fin grid0.N, win0_1.index t 0 = t.val / 32 ∧ win0_1.index t 1 = t.val % 8 ∧ win0_1.index t 2 = 0)

/-- The w2 window's: the same. -/
theorem idx_w2 : ∀ t : Fin cfg0.N, win0_2.index t 0 = t.val / 32 ∧ win0_2.index t 1 = t.val % 8 ∧ win0_2.index t 2 = 0 :=
  (by decide +kernel : ∀ t : Fin grid0.N, win0_2.index t 0 = t.val / 32 ∧ win0_2.index t 1 = t.val % 8 ∧ win0_2.index t 2 = 0)

/-- The output window's: (expert, token tile, 0), like x. -/
theorem idx_out : ∀ t : Fin cfg0.N, win0_3.index t 0 = t.val / 32 ∧ win0_3.index t 1 = t.val / 8 % 4 ∧ win0_3.index t 2 = 0 :=
  (by decide +kernel : ∀ t : Fin grid0.N, win0_3.index t 0 = t.val / 32 ∧ win0_3.index t 1 = t.val / 8 % 4 ∧ win0_3.index t 2 = 0)

/-- The three input blocks of a point and the three argument arrays, at their literal types. -/
abbrev xblk (c : Dev nD) (t : Fin cfg0.N) : Vec F S1x512x1024 .f32 := iblk m c 0 t
abbrev w1blk (c : Dev nD) (t : Fin cfg0.N) : Vec F S1x512x1024 .f32 := iblk m c 1 t
abbrev w2blk (c : Dev nD) (t : Fin cfg0.N) : Vec F S1x512x1024 .f32 := iblk m c 2 t
abbrev xarr (c : Dev nD) : Vec F S8x2048x1024 .f32 := m ((c : Thread nD τ).loc main_arg0)
abbrev w1arr (c : Dev nD) : Vec F S8x4096x1024 .f32 := m ((c : Thread nD τ).loc main_arg1)
abbrev w2arr (c : Dev nD) : Vec F S8x4096x1024 .f32 := m ((c : Thread nD τ).loc main_arg2)

/-- Entry (0, r, k) of a point's x block is x at (expert, 512·(token tile) + r, k). -/
theorem xblk_apply (c : Dev nD) (t : Fin cfg0.N) (u : Fin 1) (r : Fin 512) (k : Fin 1024)
    (e : Fin 8) (row : Fin 2048) (he : e.val = t.val / 32) (hrow : row.val = t.val / 8 % 4 * 512 + r.val) :
    xblk m c t (ix3 u r k) = xarr m c (ix3 e row k) := by
  unfold xblk iblk
  rw [View.read_apply]
  show V m c main_arg0 (((cfg0.win 0).blk t).view.emb (ix3 u r k)) = V m c main_arg0 (ix3 e row k)
  refine congrArg (V m c main_arg0) (funext fun a => Fin.ext ?_)
  have hu : u.val = 0 := by omega
  obtain ⟨h0, h1, h2⟩ := idx_x t
  match a with
  | ⟨0, _⟩ => show win0_0.index t 0 * 1 + 1 * u.val = e.val; rw [h0, he, hu]; omega
  | ⟨1, _⟩ => show win0_0.index t 1 * 512 + 1 * r.val = row.val; rw [h1, hrow]; omega
  | ⟨2, _⟩ => show win0_0.index t 2 * 1024 + 1 * k.val = k.val; rw [h2]; omega

/-- Entry (0, f, k) of a point's w1 block is w1 at (expert, 512·(hidden tile) + f, k). -/
theorem w1blk_apply (c : Dev nD) (t : Fin cfg0.N) (u : Fin 1) (f : Fin 512) (k : Fin 1024)
    (e : Fin 8) (fe : Fin 4096) (he : e.val = t.val / 32) (hfe : fe.val = t.val % 8 * 512 + f.val) :
    w1blk m c t (ix3 u f k) = w1arr m c (ix3 e fe k) := by
  unfold w1blk iblk
  rw [View.read_apply]
  show V m c main_arg1 (((cfg0.win 1).blk t).view.emb (ix3 u f k)) = V m c main_arg1 (ix3 e fe k)
  refine congrArg (V m c main_arg1) (funext fun a => Fin.ext ?_)
  have hu : u.val = 0 := by omega
  obtain ⟨h0, h1, h2⟩ := idx_w1 t
  match a with
  | ⟨0, _⟩ => show win0_1.index t 0 * 1 + 1 * u.val = e.val; rw [h0, he, hu]; omega
  | ⟨1, _⟩ => show win0_1.index t 1 * 512 + 1 * f.val = fe.val; rw [h1, hfe]; omega
  | ⟨2, _⟩ => show win0_1.index t 2 * 1024 + 1 * k.val = k.val; rw [h2]; omega

/-- Entry (0, f, j) of a point's w2 block is w2 at (expert, 512·(hidden tile) + f, j). -/
theorem w2blk_apply (c : Dev nD) (t : Fin cfg0.N) (u : Fin 1) (f : Fin 512) (j : Fin 1024)
    (e : Fin 8) (fe : Fin 4096) (he : e.val = t.val / 32) (hfe : fe.val = t.val % 8 * 512 + f.val) :
    w2blk m c t (ix3 u f j) = w2arr m c (ix3 e fe j) := by
  unfold w2blk iblk
  rw [View.read_apply]
  show V m c main_arg2 (((cfg0.win 2).blk t).view.emb (ix3 u f j)) = V m c main_arg2 (ix3 e fe j)
  refine congrArg (V m c main_arg2) (funext fun a => Fin.ext ?_)
  have hu : u.val = 0 := by omega
  obtain ⟨h0, h1, h2⟩ := idx_w2 t
  match a with
  | ⟨0, _⟩ => show win0_2.index t 0 * 1 + 1 * u.val = e.val; rw [h0, he, hu]; omega
  | ⟨1, _⟩ => show win0_2.index t 1 * 512 + 1 * f.val = fe.val; rw [h1, hfe]; omega
  | ⟨2, _⟩ => show win0_2.index t 2 * 1024 + 1 * j.val = j.val; rw [h2]; omega

/-- Entry (0, r, j) of a point's output block, read off any contents A of the result array, is A at
    (expert, 512·(token tile) + r, j). -/
theorem outblk_apply (c : Dev nD) (A : Buf (Elt F) ((c : Thread nD τ).loc main_v0)) (t : Fin cfg0.N) (u : Fin 1) (r : Fin 512) (j : Fin 1024)
    (e : Fin 8) (row : Fin 2048) (he : e.val = t.val / 32) (hrow : row.val = t.val / 8 % 4 * 512 + r.val) :
    (((cfg0.win 3).blk t).view.read (Elt F) A : Vec F S1x512x1024 .f32) (ix3 u r j) = (A : Vec F S8x2048x1024 .f32) (ix3 e row j) := by
  rw [View.read_apply]
  show (A : Vec F S8x2048x1024 .f32) (((cfg0.win 3).blk t).view.emb (ix3 u r j)) = (A : Vec F S8x2048x1024 .f32) (ix3 e row j)
  refine congrArg (A : Vec F S8x2048x1024 .f32) (funext fun a => Fin.ext ?_)
  have hu : u.val = 0 := by omega
  obtain ⟨h0, h1, h2⟩ := idx_out t
  match a with
  | ⟨0, _⟩ => show win0_3.index t 0 * 1 + 1 * u.val = e.val; rw [h0, he, hu]; omega
  | ⟨1, _⟩ => show win0_3.index t 1 * 512 + 1 * r.val = row.val; rw [h1, hrow]; omega
  | ⟨2, _⟩ => show win0_3.index t 2 * 1024 + 1 * j.val = j.val; rw [h2]; omega

end Cert.KernelIdeal.Geo

end
-- ==== Proof.Accum.lean ====
/-
  The accumulator across the hidden tiles.

  At a grid point of expert e, token tile tt and hidden tile jj, the body adds to accumulator entry (r, j) the
  contribution of hidden tile jj to out[e, 512·tt + r, j]: its three blocks are the matching parts of x, w1 and w2.
  The accumulator is reset at hidden tile 0 and the eight hidden tiles of one (e, tt) are consecutive points, so
  after the point with hidden tile jj the accumulator holds the sum of the contributions of tiles 0 … jj; by
  induction on the point. At hidden tile 7 that is the whole sum over the hidden axis, and it is what the body
  copies into the output block.
-/
import proofs.«110914_j42966852829514_1_alg».proof.Proof.Pieces
import proofs.«110914_j42966852829514_1_alg».proof.Proof.Payload
import proofs.«110914_j42966852829514_1_alg».proof.Proof.Geo
import proofs.«110914_j42966852829514_1_alg».proof.Proof.Spec

noncomputable section

namespace Cert.KernelIdeal.Acc

open Cert.KernelIdeal Cert.KernelIdeal.Gen Idealize.ShloMosaic Idealize.ShloMosaic.TcCoe Idealize.SL.Sem Idealize.ShloMosaic.ValueIdx
open Cert.ExpertMlp Cert.KernelIdeal.Geo

variable (m : (ℓ : Loc nD τ sig) → Buf (Elt Ideal) ℓ)

/-- Point n's expert, -/
abbrev pe (n : ℕ) : Fin 8 := ⟨n / 32 % 8, by omega⟩
/-- the array row of its block row r, -/
abbrev prow (n : ℕ) (r : Fin 512) : Fin 2048 := ⟨n / 8 % 4 * 512 + r.val, by omega⟩
/-- and its hidden tile. -/
abbrev ptile (n : ℕ) : Fin 8 := ⟨n % 8, by omega⟩

/-- What a point adds to accumulator entry (r, j), over its three blocks. -/
def contrib (c : Dev nD) (t : Fin cfg0.N) (r : Fin 512) (j : Fin 1024) : EReal :=
  ∑ f : Fin 512, gelu (∑ k : Fin 1024, xblk m c t (ix3 0 r k) * w1blk m c t (ix3 0 f k)) * w2blk m c t (ix3 0 f j)

/-- It is the point's hidden tile's contribution to the specification at the point's expert and row. -/
theorem contrib_eq_tile (c : Dev nD) (t : Fin cfg0.N) (r : Fin 512) (j : Fin 1024) :
    contrib m c t r j = tile (xarr m c) (w1arr m c) (w2arr m c) (pe t.val) (prow t.val r) (ptile t.val) j := by
  have hN : t.val < 256 := lt_of_lt_of_eq t.isLt (show cfg0.N = 256 from N_0)
  have he : (pe t.val).val = t.val / 32 := by show t.val / 32 % 8 = t.val / 32; omega
  unfold contrib tile preact
  refine Finset.sum_congr rfl fun f _ => ?_
  rw [w2blk_apply m c t 0 f j (pe t.val) (tileEntry (ptile t.val) f) he rfl]
  refine congrArg (fun z => gelu z * w2arr m c (ix3 (pe t.val) (tileEntry (ptile t.val) f) j)) ?_
  refine Finset.sum_congr rfl fun k _ => ?_
  rw [xblk_apply m c t 0 r k (pe t.val) (prow t.val r) he rfl,
    w1blk_apply m c t 0 f k (pe t.val) (tileEntry (ptile t.val) f) he rfl]

/-- At hidden tile 0 the accumulator ends at zero plus the point's contribution. -/
theorem scratch_first_apply (c : Dev nD) (t : Fin cfg0.N) (h0 : t.val % 8 = 0) (r : Fin 512) (j : Fin 1024) :
    (outsAt0 m c t.val t.isLt).2 (ix2 r j) = 0 + contrib m c t r j := by
  have h1 : ¬t.val % 8 = 7 := by omega
  rw [outsAt0_A m c t h0 h1]
  dsimp only
  refine (congrFun (Pieces.scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (xblk m c t) (w1blk m c t) (w2blk m c t)) (ix2 r j)).trans ?_
  rw [Pay.step_apply, Pay.reset_apply]
  rfl

/-- At every other hidden tile it ends at what the point before left plus the point's contribution. -/
theorem scratch_next_apply (c : Dev nD) (t : Fin cfg0.N) (h0 : ¬t.val % 8 = 0) (r : Fin 512) (j : Fin 1024) :
    (outsAt0 m c t.val t.isLt).2 (ix2 r j) = (outsAt0 m c (t.val - 1) (Nat.lt_of_le_of_lt (Nat.sub_le _ _) t.isLt)).2 (ix2 r j) + contrib m c t r j := by
  by_cases h1 : t.val % 8 = 7
  · rw [outsAt0_C m c t h0 h1]
    dsimp only
    refine (congrFun (Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (xblk m c t) (w1blk m c t) (w2blk m c t) (outsAt0 m c (t.val - 1) (Nat.lt_of_le_of_lt (Nat.sub_le _ _) t.isLt)).2) (ix2 r j)).trans ?_
    rw [Pay.step_apply]
    rfl
  · rw [outsAt0_B m c t h0 h1]
    dsimp only
    refine (congrFun (Pieces.scratch_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
      (xblk m c t) (w1blk m c t) (w2blk m c t) (outsAt0 m c (t.val - 1) (Nat.lt_of_le_of_lt (Nat.sub_le _ _) t.isLt)).2) (ix2 r j)).trans ?_
    rw [Pay.step_apply]
    rfl

/-- At hidden tile 7 the output block, entry (0, r, j), is the accumulator's entry (r, j). -/
theorem out_last_apply (c : Dev nD) (t : Fin cfg0.N) (h7 : t.val % 8 = 7) (u : Fin 1) (r : Fin 512) (j : Fin 1024) :
    (outsAt0 m c t.val t.isLt).1 (ix3 u r j) = (outsAt0 m c t.val t.isLt).2 (ix2 r j) := by
  have h0 : ¬t.val % 8 = 0 := by omega
  rw [outsAt0_C m c t h0 h7]
  dsimp only
  refine (congrFun (Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7)
    (xblk m c t) (w1blk m c t) (w2blk m c t) (outsAt0 m c (t.val - 1) (Nat.lt_of_le_of_lt (Nat.sub_le _ _) t.isLt)).2) (ix3 u r j)).trans ?_
  refine (Pay.copy_apply _ u r j).trans ?_
  exact (congrFun (Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7)
    (xblk m c t) (w1blk m c t) (w2blk m c t) (outsAt0 m c (t.val - 1) (Nat.lt_of_le_of_lt (Nat.sub_le _ _) t.isLt)).2) (ix2 r j)).symm

/-- THE RUNNING SUM: after point n the accumulator holds the contributions of hidden tiles 0 … n mod 8 to the
    specification at the point's expert and rows. -/
theorem scratch_eq (c : Dev nD) : ∀ (n : ℕ) (h : n < cfg0.N) (r : Fin 512) (j : Fin 1024),
    (outsAt0 m c n h).2 (ix2 r j)
      = ∑ jj ∈ tilesUpTo (n % 8), tile (xarr m c) (w1arr m c) (w2arr m c) (pe n) (prow n r) jj j
  | 0, h, r, j => by
    rw [scratch_first_apply m c ⟨0, h⟩ rfl r j, contrib_eq_tile, zero_add]
    show tile _ _ _ (pe 0) (prow 0 r) (ptile 0) j = ∑ jj ∈ tilesUpTo 0, tile _ _ _ (pe 0) (prow 0 r) jj j
    rw [tilesUpTo_zero, Finset.sum_singleton]
    rfl
  | n + 1, h, r, j => by
    have hN : n + 1 < 256 := lt_of_lt_of_eq h (show cfg0.N = 256 from N_0)
    by_cases h0 : (n + 1) % 8 = 0
    · rw [scratch_first_apply m c ⟨n + 1, h⟩ h0 r j, contrib_eq_tile, zero_add]
      show tile _ _ _ (pe (n + 1)) (prow (n + 1) r) (ptile (n + 1)) j = _
      have ht : ptile (n + 1) = 0 := Fin.ext h0
      rw [h0, tilesUpTo_zero, Finset.sum_singleton, ht]
    · rw [scratch_next_apply m c ⟨n + 1, h⟩ h0 r j, contrib_eq_tile]
      show (outsAt0 m c n _).2 (ix2 r j) + tile _ _ _ (pe (n + 1)) (prow (n + 1) r) (ptile (n + 1)) j = _
      rw [scratch_eq c n _ r j]
      have hk : n % 8 + 1 < 8 := by omega
      have e1 : pe n = pe (n + 1) := Fin.ext (by show n / 32 % 8 = (n + 1) / 32 % 8; omega)
      have e2 : prow n r = prow (n + 1) r := Fin.ext (by show n / 8 % 4 * 512 + r.val = (n + 1) / 8 % 4 * 512 + r.val; omega)
      have e3 : tilesUpTo ((n + 1) % 8) = tilesUpTo (n % 8 + 1) := congrArg tilesUpTo (by omega)
      have e4 : ptile (n + 1) = ⟨n % 8 + 1, hk⟩ := Fin.ext (by show (n + 1) % 8 = n % 8 + 1; omega)
      rw [e1, e2, e3, e4]
      exact tiles_step (fun jj => tile (xarr m c) (w1arr m c) (w2arr m c) (pe (n + 1)) (prow (n + 1) r) jj j) (n % 8) hk

/-- So at a point of hidden tile 7 the output block's entry (0, r, j) is the specification at the point's expert
    and row: all eight tiles are in. -/
theorem out_eq_spec (c : Dev nD) (t : Fin cfg0.N) (h7 : t.val % 8 = 7) (u : Fin 1) (r : Fin 512) (j : Fin 1024) :
    (outsAt0 m c t.val t.isLt).1 (ix3 u r j)
      = G (xarr m c) (w1arr m c) (w2arr m c) (ix3 (pe t.val) (prow t.val r) j) := by
  rw [out_last_apply m c t h7 u r j, scratch_eq m c t.val t.isLt r j, h7, tilesUpTo_seven, G_eq_tiles]

end Cert.KernelIdeal.Acc

end
-- ==== Proof.Final.lean ====
/-
  The kernel's result array after the run.

  The output window is written back only at the points of hidden tile 7, one for each (expert, token tile): 32
  blocks of 512 rows. What such a point writes back is, entry by entry, the specification read through the block
  (the accumulator holds all eight tiles' contributions there). Row t of expert e lies in the block of token tile
  t / 512, so the 32 blocks cover the array, and the array ends holding the specification everywhere.
-/
import proofs.«110914_j42966852829514_1_alg».proof.Proof.Gen.KernelIdeal.Value
import proofs.«110914_j42966852829514_1_alg».proof.Proof.Accum

noncomputable section

namespace Cert.KernelIdeal.Final

open Cert.KernelIdeal Cert.KernelIdeal.Gen Idealize.ShloMosaic Idealize.ShloMosaic.TcCoe Idealize.SL.Sem Idealize.ShloMosaic.ValueIdx
open Idealize.ShloMosaic.Pipeline (Dat)
open Cert.ExpertMlp Cert.KernelIdeal.Geo Cert.KernelIdeal.Acc

variable (m : (ℓ : Loc nD τ sig) → Buf (Elt Ideal) ℓ) (ρ : Dev nD → PrngReg)

/-- The specification of the launch contents of the three arguments, as contents of the result array. -/
abbrev result (c : Dev nD) : Buf (Elt Ideal) ((c : Thread nD τ).loc main_v0) :=
  G (xarr m c) (w1arr m c) (w2arr m c)

/-- What a write-back writes is the specification read through the point's block. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  have hN : t.val < 256 := lt_of_lt_of_eq t.isLt (show cfg0.N = 256 from N_0)
  have he : (pe t.val).val = t.val / 32 := by show t.val / 32 % 8 = t.val / 32; omega
  rw [Value.flushed3]
  show ((outsAt0 m c t.val t.isLt).1 : Vec Ideal S1x512x1024 .f32)
    = (((cfg0.win 3).blk t).view.read (Elt Ideal) (result m c) : Vec Ideal S1x512x1024 .f32)
  funext y
  obtain ⟨u, r, j, rfl⟩ : ∃ (u : Fin 1) (r : Fin 512) (j : Fin 1024), y = ix3 u r j := ⟨y 0, y 1, y 2, eq_ix3 y⟩
  rw [out_eq_spec m c t h7 u r j, outblk_apply c (result m c) t u r j (pe t.val) (prow t.val r) he rfl]

/-- An entry of the array is in a point's output block iff each coordinate is in the block's range. -/
theorem mem_outblk (t : Fin cfg0.N) (i : S8x2048x1024.Idx) :
    i ∈ ((cfg0.win 3).blk t).view.set
      ↔ ∀ a : Fin 3, win0_3.index t a * S1x512x1024.size a ≤ (i a).val ∧ (i a).val < win0_3.index t a * S1x512x1024.size a + S1x512x1024.size a := by
  show i ∈ ((View.whole main_v0).slice (win0_3.rect t)).set ↔ _
  rw [View.set_slice_whole, Rect.mem_set_unit]
  exact Iff.rfl

/-- Every entry (e, row, j) is in the block written back at the last hidden tile of (e, row / 512). -/
theorem cover (i : S8x2048x1024.Idx) :
    ∃ t : Fin cfg0.N, (cfg0.win 3).flush t = true ∧ i ∈ ((cfg0.win 3).blk t).view.set := by
  have b0 : (i 0).val < 8 := (i 0).isLt
  have b1 : (i 1).val < 2048 := (i 1).isLt
  have b2 : (i 2).val < 1024 := (i 2).isLt
  have hN : cfg0.N = 256 := N_0
  obtain ⟨t, ht⟩ : ∃ t : Fin cfg0.N, t.val = ((i 0).val * 4 + (i 1).val / 512) * 8 + 7 := ⟨⟨_, by omega⟩, rfl⟩
  refine ⟨t, (flush0_3 t).mpr (by omega), ?_⟩
  rw [mem_outblk]
  obtain ⟨q0, q1, q2⟩ := idx_out t
  intro a
  match a with
  | ⟨0, _⟩ => show win0_3.index t 0 * 1 ≤ (i 0).val ∧ (i 0).val < win0_3.index t 0 * 1 + 1; rw [q0]; omega
  | ⟨1, _⟩ => show win0_3.index t 1 * 512 ≤ (i 1).val ∧ (i 1).val < win0_3.index t 1 * 512 + 512; rw [q1]; omega
  | ⟨2, _⟩ => show win0_3.index t 2 * 1024 ≤ (i 2).val ∧ (i 2).val < win0_3.index t 2 * 1024 + 1024; rw [q2]; omega

/-- So the result array ends holding the specification. -/
theorem final (c : Dev nD) : (dats m 0 c).arrAt 3 cfg0.N = result m c :=
  (dats m 0 c).arrAt_eq_of_cover 3 (result m c) (flushed_eq m c) cover

/-- The kernel's run, read: the result array at the specification of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Final

end
-- ==== Proof.lean ====
/-
  One expert feed-forward block: a fused kernel against two einsums.

  For experts e < 8, token rows t < 2048 and model columns j < 1024 both programs compute, on the extended reals,
      out[e, t, j] = ∑ f < 4096, gelu (∑ k < 1024, x[e, t, k] · w1[e, f, k]) · w2[e, f, j],
  gelu the tanh approximation with the same four literal words on both sides.

  The reference does it with two batched contractions around eleven pointwise operations; read stage by stage it is
  that formula, its cube (h · h) · h regrouped by commutativity (Proof/RefIsSpec.lean over Proof/Spec.lean).

  The kernel walks a grid of 8 experts × 4 token tiles × 8 hidden tiles. At each point it forms the 512 × 512 tile
  of hidden pre-activations, applies gelu, multiplies by the matching 512 rows of w2 and adds the product into a
  [512, 1024] accumulator that is zeroed at hidden tile 0 and copied out at hidden tile 7. Its narrowing casts are
  the identity on extended reals and each product into a zero accumulator is a plain sum (Proof/Payload.lean); what
  each control case leaves in the accumulator and the output block is read off the run (Proof/Pieces.lean); a
  point's blocks are the matching parts of the arrays (Proof/Geo.lean); so after hidden tile jj the accumulator
  holds tiles 0 … jj of the sum, by induction on the point, and the block copied out holds the whole sum
  (Proof/Accum.lean); the 32 blocks copied out cover the result array (Proof/Final.lean).

  The two sides differ only in how the sum over the 4096 hidden entries is grouped: eight tile sums added one
  after another from zero against one sum. Addition of extended reals is commutative and associative, so the
  grouping does not matter and the inputs' finiteness is never used. The kernel's idealization is the kernel's
  own text read on the extended reals, so nothing is owed for it.
-/
import proofs.«110914_j42966852829514_1_alg».proof.Defs
import proofs.«110914_j42966852829514_1_alg».proof.Proof.Gen.Kernel
import proofs.«110914_j42966852829514_1_alg».proof.Proof.Gen.Kernel.Skeleton
import proofs.«110914_j42966852829514_1_alg».proof.Proof.Gen.Kernel.Launch
import proofs.«110914_j42966852829514_1_alg».proof.Proof.Gen.Kernel.Points
import proofs.«110914_j42966852829514_1_alg».proof.Proof.Gen.Kernel.Frame
import proofs.«110914_j42966852829514_1_alg».proof.Proof.Gen.KernelIdeal
import proofs.«110914_j42966852829514_1_alg».proof.Proof.Gen.KernelIdeal.Skeleton
import proofs.«110914_j42966852829514_1_alg».proof.Proof.Gen.KernelIdeal.Launch
import proofs.«110914_j42966852829514_1_alg».proof.Proof.Gen.KernelIdeal.Points
import proofs.«110914_j42966852829514_1_alg».proof.Proof.Gen.KernelIdeal.Frame
import proofs.«110914_j42966852829514_1_alg».proof.Proof.Gen.ReferenceIdeal
import proofs.«110914_j42966852829514_1_alg».proof.Proof.Gen.Pre_finite_inputs
import proofs.«110914_j42966852829514_1_alg».proof.Proof.Gen.KernelIdeal.Value
import proofs.«110914_j42966852829514_1_alg».proof.Proof.Gen.ReferenceIdeal.Run
import proofs.«110914_j42966852829514_1_alg».proof.Proof.Gen.ReferenceIdeal.Read
import proofs.«110914_j42966852829514_1_alg».proof.Proof.RefIsSpec
import proofs.«110914_j42966852829514_1_alg».proof.Proof.Final
import Idealize.ShloMosaic.Adequacy
import Idealize.ShloMosaic.Init

noncomputable section

namespace Cert.Proof

open Idealize.ShloMosaic Idealize.ShloMosaic.TcCoe Idealize.SL.Sem

/-- The word-level kernel terminates without a fault and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is nineteen host operations in a row: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories that agree on x, w1 and w2 the kernel's result array ends at the specification of its arguments
    and the reference's at the specification of its own: the same array. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
